-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32 : Shape := ⟨2, ![16384, 32]⟩
abbrev S32x4096 : Shape := ⟨2, ![32, 4096]⟩
abbrev S4096 : Shape := ⟨1, ![4096]⟩
abbrev S4096x32 : Shape := ⟨2, ![4096, 32]⟩
abbrev S32 : Shape := ⟨1, ![32]⟩
abbrev S64x4096 : Shape := ⟨2, ![64, 4096]⟩
abbrev S4096x128 : Shape := ⟨2, ![4096, 128]⟩
abbrev S128 : Shape := ⟨1, ![128]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel
  bcast_S_S32x4096 : S_.BroadcastsInDim S32x4096 (![] : Fin 0 → Fin S32x4096.rank)
  reducesTo_S32x4096_S_d0_1 : S32x4096.ReducesTo [0, 1] S_
  bcast_S_S4096 : S_.BroadcastsInDim S4096 (![] : Fin 0 → Fin S4096.rank)
  reducesTo_S4096_S_d0 : S4096.ReducesTo [0] S_
  bcast_S_S4096x32 : S_.BroadcastsInDim S4096x32 (![] : Fin 0 → Fin S4096x32.rank)
  reducesTo_S4096x32_S_d0_1 : S4096x32.ReducesTo [0, 1] S_
  bcast_S_S32 : S_.BroadcastsInDim S32 (![] : Fin 0 → Fin S32.rank)
  reducesTo_S32_S_d0 : S32.ReducesTo [0] S_
  bcast_S_S64x4096 : S_.BroadcastsInDim S64x4096 (![] : Fin 0 → Fin S64x4096.rank)
  reducesTo_S64x4096_S_d0_1 : S64x4096.ReducesTo [0, 1] S_
  bcast_S_S4096x128 : S_.BroadcastsInDim S4096x128 (![] : Fin 0 → Fin S4096x128.rank)
  reducesTo_S4096x128_S_d0_1 : S4096x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S4096 .f32) (main_arg8 : FVec F S4096x128 .f32) (main_arg9 : FVec F S128 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096x128 .f32 := Host.absf main_arg8
  let main_cst_14 : FVec F S_ .f32 := constant S_ .f32 0x7F800000#32
  let main_v40 : FVec F S4096x128 .f32 := broadcastInDim S4096x128 ![] bcast_S_S4096x128 main_cst_14
  let main_v41 : IVec S4096x128 1 := cmpf .olt main_v39 main_v40
  let main_c_15 : IVec S_ 1 := constantI S_ 1 1#1
  let main_v42 : IVec S_ 1 := (fun x v => Host.reduce IntOp.andi x v reducesTo_S4096x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S4096x32 .f32) (main_arg5 : FVec F S32 .f32) (main_arg6 : FVec F S64x4096 .f32) (main_arg7 : FVec F S4096 .f32) (main_arg8 : FVec F S4096x128 .f32) (main_arg9 : FVec F S128 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x32 .f32 := Host.absf main_arg4
  let main_cst_6 : FVec F S_ .f32 := constant S_ .f32 0x7F800000#32
  let main_v20 : FVec F S4096x32 .f32 := broadcastInDim S4096x32 ![] bcast_S_S4096x32 main_cst_6
  let main_v21 : IVec S4096x32 1 := cmpf .olt main_v19 main_v20
  let main_c_7 : IVec S_ 1 := constantI S_ 1 1#1
  let main_v22 : IVec S_ 1 := (fun x v => Host.reduce IntOp.andi x v reducesTo_S4096x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x4096 .f32 := Host.absf main_arg6
  let main_cst_10 : FVec F S_ .f32 := constant S_ .f32 0x7F800000#32
  let main_v30 : FVec F S64x4096 .f32 := broadcastInDim S64x4096 ![] bcast_S_S64x4096 main_cst_10
  let main_v31 : IVec S64x4096 1 := cmpf .olt main_v29 main_v30
  let main_c_11 : IVec S_ 1 := constantI S_ 1 1#1
  let main_v32 : IVec S_ 1 := (fun x v => Host.reduce IntOp.andi x v reducesTo_S64x4096_S_d0_1 h_S_) main_v31 main_c_11
  let main_v33 : IVec S_ 1 := andi main_v28 main_v32
  fn_part2 (F := F) main_arg7 main_arg8 main_arg9 main_v33

def fn {F : FTy → Type} [FloatOps F] (main_arg0 : FVec F S16384x32 .f32) (main_arg1 : FVec F S16384x32 .f32) (main_arg2 : FVec F S32x4096 .f32) (main_arg3 : FVec F S4096 .f32) (main_arg4 : FVec F S4096x32 .f32) (main_arg5 : FVec F S32 .f32) (main_arg6 : FVec F S64x4096 .f32) (main_arg7 : FVec F S4096 .f32) (main_arg8 : FVec F S4096x128 .f32) (main_arg9 : FVec F S128 .f32) : IVec S_ 1 :=
  let main_v0 : FVec F S16384x32 .f32 := Host.absf main_arg0
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  let main_v4 : FVec F S16384x32 .f32 := Host.absf main_arg1
  let main_cst_0 : FVec F S_ .f32 := constant S_ .f32 0x7F800000#32
  let main_v5 : FVec F S16384x32 .f32 := broadcastInDim S16384x32 ![] bcast_S_S16384x32 main_cst_0
  let main_v6 : IVec S16384x32 1 := cmpf .olt main_v4 main_v5
  let main_c_1 : IVec S_ 1 := constantI S_ 1 1#1
  let main_v7 : IVec S_ 1 := (fun x v => Host.reduce IntOp.andi x v reducesTo_S16384x32_S_d0_1 h_S_) main_v6 main_c_1
  let main_v8 : IVec S_ 1 := andi main_v3 main_v7
  let main_v9 : FVec F S32x4096 .f32 := Host.absf main_arg2
  let main_cst_2 : FVec F S_ .f32 := constant S_ .f32 0x7F800000#32
  let main_v10 : FVec F S32x4096 .f32 := broadcastInDim S32x4096 ![] bcast_S_S32x4096 main_cst_2
  let main_v11 : IVec S32x4096 1 := cmpf .olt main_v9 main_v10
  let main_c_3 : IVec S_ 1 := constantI S_ 1 1#1
  let main_v12 : IVec S_ 1 := (fun x v => Host.reduce IntOp.andi x v reducesTo_S32x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_v13 main_v16
-- ==== Kernel.lean ====
abbrev S16384x32 : Shape := ⟨2, ![16384, 32]⟩
abbrev S32x4096 : Shape := ⟨2, ![32, 4096]⟩
abbrev S4096 : Shape := ⟨1, ![4096]⟩
abbrev S4096x32 : Shape := ⟨2, ![4096, 32]⟩
abbrev S32 : Shape := ⟨1, ![32]⟩
abbrev S64x4096 : Shape := ⟨2, ![64, 4096]⟩
abbrev S4096x128 : Shape := ⟨2, ![4096, 128]⟩
abbrev S128 : Shape := ⟨1, ![128]⟩
abbrev S1x4096 : Shape := ⟨2, ![1, 4096]⟩
abbrev S1x32 : Shape := ⟨2, ![1, 32]⟩
abbrev S1x128 : Shape := ⟨2, ![1, 128]⟩
abbrev S16384x128 : Shape := ⟨2, ![16384, 128]⟩
abbrev S512x32 : Shape := ⟨2, ![512, 32]⟩
abbrev S512x128 : Shape := ⟨2, ![512, 128]⟩
abbrev S512x4096 : Shape := ⟨2, ![512, 4096]⟩

abbrev nBuf : Space → Nat
  | .hbm => 17
  | .vmem => 15
  | .smem => 0
  | _ => 0

abbrev bufTy : (tb : Table) → Fin (tcTables nBuf tb) → BufTy
  | .hbm, ⟨0, _⟩ => ⟨S16384x32, .f32⟩
  | .hbm, ⟨1, _⟩ => ⟨S16384x32, .f32⟩
  | .hbm, ⟨2, _⟩ => ⟨S32x4096, .f32⟩
  | .hbm, ⟨3, _⟩ => ⟨S4096, .f32⟩
  | .hbm, ⟨4, _⟩ => ⟨S4096x32, .f32⟩
  | .hbm, ⟨5, _⟩ => ⟨S32, .f32⟩
  | .hbm, ⟨6, _⟩ => ⟨S64x4096, .f32⟩
  | .hbm, ⟨7, _⟩ => ⟨S4096, .f32⟩
  | .hbm, ⟨8, _⟩ => ⟨S4096x128, .f32⟩
  | .hbm, ⟨9, _⟩ => ⟨S128, .f32⟩
  | .hbm, ⟨10, _⟩ => ⟨S32x4096, .f32⟩
  | .hbm, ⟨11, _⟩ => ⟨S32x4096, .f32⟩
  | .hbm, ⟨12, _⟩ => ⟨S1x4096, .f32⟩
  | .hbm, ⟨13, _⟩ => ⟨S1x32, .f32⟩
  | .hbm, ⟨14, _⟩ => ⟨S1x4096, .f32⟩
  | .hbm, ⟨15, _⟩ => ⟨S1x128, .f32⟩
  | .hbm, ⟨16, _⟩ => ⟨S16384x128, .f32⟩
  | .local _ .vmem, ⟨0, _⟩ => ⟨S512x32, .f32⟩
  | .local _ .vmem, ⟨1, _⟩ => ⟨S512x32, .f32⟩
  | .local _ .vmem, ⟨2, _⟩ => ⟨S512x32, .f32⟩
  | .local _ .vmem, ⟨3, _⟩ => ⟨S512x32, .f32⟩
  | .local _ .vmem, ⟨4, _⟩ => ⟨S32x4096, .f32⟩
  | .local _ .vmem, ⟨5, _⟩ => ⟨S1x4096, .f32⟩
  | .local _ .vmem, ⟨6, _⟩ => ⟨S4096x32, .f32⟩
  | .local _ .vmem, ⟨7, _⟩ => ⟨S1x32, .f32⟩
  | .local _ .vmem, ⟨8, _⟩ => ⟨S32x4096, .f32⟩
  | .local _ .vmem, ⟨9, _⟩ => ⟨S32x4096, .f32⟩
  | .local _ .vmem, ⟨10, _⟩ => ⟨S1x4096, .f32⟩
  | .local _ .vmem, ⟨11, _⟩ => ⟨S4096x128, .f32⟩
  | .local _ .vmem, ⟨12, _⟩ => ⟨S1x128, .f32⟩
  | .local _ .vmem, ⟨13, _⟩ => ⟨S512x128, .f32⟩
  | .local _ .vmem, ⟨14, _⟩ => ⟨S512x128, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S64x4096_S32x4096_0_0 : S64x4096.Slices ![0, 0] S32x4096
  slices_S64x4096_S32x4096_32_0 : S64x4096.Slices ![32, 0] S32x4096
  shapeCasts_S4096_S1x4096 : S4096.ShapeCasts S1x4096
  shapeCasts_S32_S1x32 : S32.ShapeCasts S1x32
  shapeCasts_S128_S1x128 : S128.ShapeCasts S1x128
  inb_S32x4096_S32x4096_0_0 : ∀ a, (![0, 0] : Fin 2 → Nat) a + S32x4096.size a ≤ S32x4096.size a
  h_S32x4096 : 0 < S32x4096.numel
  inb_S4096x32_S4096x32_0_0 : ∀ a, (![0, 0] : Fin 2 → Nat) a + S4096x32.size a ≤ S4096x32.size a
  h_S4096x32 : 0 < S4096x32.numel
  inb_S512x32_S512x32_0_0 : ∀ a, (![0, 0] : Fin 2 → Nat) a + S512x32.size a ≤ S512x32.size a
  h_S512x32 : 0 < S512x32.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  shapeCasts_S32x4096_S32x4096 : S32x4096.ShapeCasts S32x4096
  inb_S4096x128_S4096x128_0_0 : ∀ a, (![0, 0] : Fin 2 → Nat) a + S4096x128.size a ≤ S4096x128.size a
  h_S4096x128 : 0 < S4096x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  dot_S512x32_S32x4096_S512x4096_1_0_0_1_n_n_wf : DotDims.WF S512x32 S32x4096 S512x4096 [1] [0] [0] [1] [] []
  dot_S512x4096_S4096x32_S512x32_1_0_0_1_n_n_wf : DotDims.WF S512x4096 S4096x32 S512x32 [1] [0] [0] [1] [] []
  dot_S512x4096_S4096x128_S512x128_1_0_0_1_n_n_wf : DotDims.WF S512x4096 S4096x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x32.size a ≤ S16384x32.size a
  hwx0_0 : ∀ i : grid0.Coords, EltTy.bits .f32 = 32 ∨ (Rect.block (s := S16384x32) S512x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S16384x32.size a
  hwx0_1 : ∀ i : grid0.Coords, EltTy.bits .f32 = 32 ∨ (Rect.block (s := S16384x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x4096.size a ≤ S32x4096.size a
  hwx0_2 : ∀ i : grid0.Coords, EltTy.bits .f32 = 32 ∨ (Rect.block (s := S32x4096) S32x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x32.size a ≤ S4096x32.size a
  hwx0_4 : ∀ i : grid0.Coords, EltTy.bits .f32 = 32 ∨ (Rect.block (s := S4096x32) S4096x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x4096.size a ≤ S32x4096.size a
  hwx0_6 : ∀ i : grid0.Coords, EltTy.bits .f32 = 32 ∨ (Rect.block (s := S32x4096) S32x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x4096.size a ≤ S32x4096.size a
  hwx0_7 : ∀ i : grid0.Coords, EltTy.bits .f32 = 32 ∨ (Rect.block (s := S32x4096) S32x4096.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x4096.size a ≤ S1x4096.size a
  hwx0_8 : ∀ i : grid0.Coords, EltTy.bits .f32 = 32 ∨ (Rect.block (s := S1x4096) S1x4096.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S4096x128.size a ≤ S4096x128.size a
  hwx0_9 : ∀ i : grid0.Coords, EltTy.bits .f32 = 32 ∨ (Rect.block (s := S4096x128) S4096x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x128.size a ≤ S16384x128.size a
  hwx0_11 : ∀ i : grid0.Coords, EltTy.bits .f32 = 32 ∨ (Rect.block (s := S16384x128) S512x128.size (cc0_transform_11 i) (hinb0_11 i)).WholeWords (EltTy.packing .f32)

variable [Facts₀]

def dot_S512x32_S32x4096_S512x4096_1_0_0_1_n_n : DotDims S512x32 S32x4096 S512x4096 where
  lhsContracting := [1]
  rhsContracting := [0]
  lhsNonContracting := [0]
  rhsNonContracting := [1]
  lhsBatch := []
  rhsBatch := []
  wf := dot_S512x32_S32x4096_S512x4096_1_0_0_1_n_n_wf
def dot_S512x4096_S4096x32_S512x32_1_0_0_1_n_n : DotDims S512x4096 S4096x32 S512x32 where
  lhsContracting := [1]
  rhsContracting := [0]
  lhsNonContracting := [0]
  rhsNonContracting := [1]
  lhsBatch := []
  rhsBatch := []
  wf := dot_S512x4096_S4096x32_S512x32_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_arg0) S512x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4096x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S32x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S32x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x4096.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S4096x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S512x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16384x32 : Shape := ⟨2, ![16384, 32]⟩
abbrev S32x4096 : Shape := ⟨2, ![32, 4096]⟩
abbrev S4096 : Shape := ⟨1, ![4096]⟩
abbrev S4096x32 : Shape := ⟨2, ![4096, 32]⟩
abbrev S32 : Shape := ⟨1, ![32]⟩
abbrev S64x4096 : Shape := ⟨2, ![64, 4096]⟩
abbrev S4096x128 : Shape := ⟨2, ![4096, 128]⟩
abbrev S128 : Shape := ⟨1, ![128]⟩
abbrev S16384x4096 : Shape := ⟨2, ![16384, 4096]⟩
abbrev S1x4096 : Shape := ⟨2, ![1, 4096]⟩
abbrev S_ : Shape := ⟨0, ![]⟩
abbrev S1x32 : Shape := ⟨2, ![1, 32]⟩
abbrev S16384x64 : Shape := ⟨2, ![16384, 64]⟩
abbrev S16384x128 : Shape := ⟨2, ![16384, 128]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S16384x32, .f32⟩
  | .hbm, ⟨2, _⟩ => ⟨S32x4096, .f32⟩
  | .hbm, ⟨3, _⟩ => ⟨S4096, .f32⟩
  | .hbm, ⟨4, _⟩ => ⟨S4096x32, .f32⟩
  | .hbm, ⟨5, _⟩ => ⟨S32, .f32⟩
  | .hbm, ⟨6, _⟩ => ⟨S64x4096, .f32⟩
  | .hbm, ⟨7, _⟩ => ⟨S4096, .f32⟩
  | .hbm, ⟨8, _⟩ => ⟨S4096x128, .f32⟩
  | .hbm, ⟨9, _⟩ => ⟨S128, .f32⟩
  | .hbm, ⟨10, _⟩ => ⟨S16384x4096, .f32⟩
  | .hbm, ⟨11, _⟩ => ⟨S1x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x32, .f32⟩
  | .hbm, ⟨18, _⟩ => ⟨S1x32, .f32⟩
  | .hbm, ⟨19, _⟩ => ⟨S16384x32, .f32⟩
  | .hbm, ⟨20, _⟩ => ⟨S16384x32, .f32⟩
  | .hbm, ⟨21, _⟩ => ⟨S_, .f32⟩
  | .hbm, ⟨22, _⟩ => ⟨S16384x32, .f32⟩
  | .hbm, ⟨23, _⟩ => ⟨S16384x32, .f32⟩
  | .hbm, ⟨24, _⟩ => ⟨S16384x4096, .f32⟩
  | .hbm, ⟨25, _⟩ => ⟨S1x4096, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384x4096, .f32⟩
  | .hbm, ⟨30, _⟩ => ⟨S16384x4096, .f32⟩
  | .hbm, ⟨31, _⟩ => ⟨S16384x32, .f32⟩
  | .hbm, ⟨32, _⟩ => ⟨S1x32, .f32⟩
  | .hbm, ⟨33, _⟩ => ⟨S16384x32, .f32⟩
  | .hbm, ⟨34, _⟩ => ⟨S16384x32, .f32⟩
  | .hbm, ⟨35, _⟩ => ⟨S_, .f32⟩
  | .hbm, ⟨36, _⟩ => ⟨S16384x32, .f32⟩
  | .hbm, ⟨37, _⟩ => ⟨S16384x32, .f32⟩
  | .hbm, ⟨38, _⟩ => ⟨S16384x64, .f32⟩
  | .hbm, ⟨39, _⟩ => ⟨S16384x4096, .f32⟩
  | .hbm, ⟨40, _⟩ => ⟨S1x4096, .f32⟩
  | .hbm, ⟨41, _⟩ => ⟨S16384x4096, .f32⟩
  | .hbm, ⟨42, _⟩ => ⟨S16384x4096, .f32⟩
  | .hbm, ⟨43, _⟩ => ⟨S_, .f32⟩
  | .hbm, ⟨44, _⟩ => ⟨S16384x4096, .f32⟩
  | .hbm, ⟨45, _⟩ => ⟨S16384x4096, .f32⟩
  | .hbm, ⟨46, _⟩ => ⟨S16384x128, .f32⟩
  | .hbm, ⟨47, _⟩ => ⟨S1x128, .f32⟩
  | .hbm, ⟨48, _⟩ => ⟨S16384x128, .f32⟩
  | .hbm, ⟨49, _⟩ => ⟨S16384x128, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call2_cst : Ref sig .tc := ⟨.hbm, 28, rfl⟩
abbrev main_call2_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call3_cst : Ref sig .tc := ⟨.hbm, 35, rfl⟩
abbrev main_call3_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call4_cst : Ref sig .tc := ⟨.hbm, 43, rfl⟩
abbrev main_call4_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  concatenates_S16384x32_S16384x32_S16384x64_d1 : Shape.Concatenates [S16384x32, S16384x32] S16384x64 1
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  dot_S16384x32_S32x4096_S16384x4096_1_0_0_1_n_n_wf : DotDims.WF S16384x32 S32x4096 S16384x4096 [1] [0] [0] [1] [] []
  dot_S16384x4096_S4096x32_S16384x32_1_0_0_1_n_n_wf : DotDims.WF S16384x4096 S4096x32 S16384x32 [1] [0] [0] [1] [] []
  dot_S16384x64_S64x4096_S16384x4096_1_0_0_1_n_n_wf : DotDims.WF S16384x64 S64x4096 S16384x4096 [1] [0] [0] [1] [] []
  dot_S16384x4096_S4096x128_S16384x128_1_0_0_1_n_n_wf : DotDims.WF S16384x4096 S4096x128 S16384x128 [1] [0] [0] [1] [] []

variable [Facts₀]

def dot_S16384x32_S32x4096_S16384x4096_1_0_0_1_n_n : DotDims S16384x32 S32x4096 S16384x4096 where
  lhsContracting := [1]
  rhsContracting := [0]
  lhsNonContracting := [0]
  rhsNonContracting := [1]
  lhsBatch := []
  rhsBatch := []
  wf := dot_S16384x32_S32x4096_S16384x4096_1_0_0_1_n_n_wf
def dot_S16384x4096_S4096x32_S16384x32_1_0_0_1_n_n : DotDims S16384x4096 S4096x32 S16384x32 where
  lhsContracting := [1]
  rhsContracting := [0]
  lhsNonContracting := [0]
  rhsNonContracting := [1]
  lhsBatch := []
  rhsBatch := []
  wf := dot_S16384x4096_S4096x32_S16384x32_1_0_0_1_n_n_wf
def dot_S16384x64_S64x4096_S16384x4096_1_0_0_1_n_n : DotDims S16384x64 S64x4096 S16384x4096 where
  lhsContracting := [1]
  rhsContracting := [0]
  lhsNonContracting := [0]
  rhsNonContracting := [1]
  lhsBatch := []
  rhsBatch := []
  wf := dot_S16384x64_S64x4096_S16384x4096_1_0_0_1_n_n_wf
def dot_S16384x4096_S4096x128_S16384x128_1_0_0_1_n_n : DotDims S16384x4096 S4096x128 S16384x128 where
  lhsContracting := [1]
  rhsContracting := [0]
  lhsNonContracting := [0]
  rhsNonContracting := [1]
  lhsBatch := []
  rhsBatch := []
  wf := dot_S16384x4096_S4096x128_S16384x128_1_0_0_1_n_n_wf

class Facts : Prop extends Facts₀ where

variable [Facts]
-- ==== Proof.RowSpec.lean ====
/-
  The network on ONE batch row, over the extended reals.

  A row `s` of `state` and a row `n` of `next_state` (32 entries each) go through one shared two-layer tower,
      tower x = max (max (x · W1 + b1, 0) · W2 + b2, 0)                     (32 → 4096 → 32),
  the two tower outputs feed a third layer whose 64 × 4096 weight is used as its two 32-row halves `Wa`, `Wb`,
      joint u v = max (u · Wa + v · Wb + b3, 0)                            (32 + 32 → 4096),
  and a last affine layer gives the 128 outputs,
      head h = h · W4 + b4                                                 (4096 → 128).
  Every output row depends on its own row of the two inputs and on the whole weights; nothing mixes rows. The only
  algebra in the certificate is that a contraction over the 64 joined coordinates is the sum of the contractions over
  its two halves (`sum_two_halves`), which holds in any additive commutative monoid: the extended reals' infinities do
  not matter and no input needs to be finite.
-/
import Idealize.ShloMosaic.Lib.ValueIdx

noncomputable section

open scoped BigOperators

namespace Cert.RowSpec

open Idealize.ShloMosaic Idealize.ShloMosaic.ValueIdx

/-- A rank-2 array as a function of its two coordinates. -/
abbrev mat {a b : Nat} (x : (⟨2, ![a, b]⟩ : Shape).Idx → EReal) : Fin a → Fin b → EReal := fun p k => x (ix2 p k)
/-- A rank-1 array as a function of its coordinate. -/
abbrev vec {a : Nat} (x : (⟨1, ![a]⟩ : Shape).Idx → EReal) : Fin a → EReal := fun k => x (ix1 k)
/-- Row `R` of a rank-2 array. -/
abbrev row {a b : Nat} (x : (⟨2, ![a, b]⟩ : Shape).Idx → EReal) (R : Fin a) : Fin b → EReal := fun p => x (ix2 R p)

/-- The tower's first layer on one row: `max (x · W1[:, k] + b1[k], 0)`. -/
def hidden (W1 : Fin 32 → Fin 4096 → EReal) (b1 : Fin 4096 → EReal) (x : Fin 32 → EReal) (k : Fin 4096) : EReal :=
  max ((∑ p : Fin 32, x p * W1 p k) + b1 k) 0

/-- The tower on one row: `max (hidden x · W2[:, q] + b2[q], 0)`. -/
def tower (W1 : Fin 32 → Fin 4096 → EReal) (b1 : Fin 4096 → EReal) (W2 : Fin 4096 → Fin 32 → EReal) (b2 : Fin 32 → EReal)
    (x : Fin 32 → EReal) (q : Fin 32) : EReal :=
  max ((∑ k : Fin 4096, hidden W1 b1 x k * W2 k q) + b2 q) 0

/-- The third layer on the two tower outputs, its weight given as the two halves:
    `max (u · Wa[:, k] + v · Wb[:, k] + b3[k], 0)`. -/
def joint (Wa Wb : Fin 32 → Fin 4096 → EReal) (b3 : Fin 4096 → EReal) (u v : Fin 32 → EReal) (k : Fin 4096) : EReal :=
  max (((∑ q : Fin 32, u q * Wa q k) + (∑ q : Fin 32, v q * Wb q k)) + b3 k) 0

/-- The last layer: `h · W4[:, j] + b4[j]`. -/
def head (W4 : Fin 4096 → Fin 128 → EReal) (b4 : Fin 128 → EReal) (h : Fin 4096 → EReal) (j : Fin 128) : EReal :=
  (∑ k : Fin 4096, h k * W4 k j) + b4 j

/-- One output row from one row of each input. -/
def rowOut (W1 : Fin 32 → Fin 4096 → EReal) (b1 : Fin 4096 → EReal) (W2 : Fin 4096 → Fin 32 → EReal) (b2 : Fin 32 → EReal)
    (Wa Wb : Fin 32 → Fin 4096 → EReal) (b3 : Fin 4096 → EReal) (W4 : Fin 4096 → Fin 128 → EReal) (b4 : Fin 128 → EReal)
    (s n : Fin 32 → EReal) (j : Fin 128) : EReal :=
  head W4 b4 (joint Wa Wb b3 (tower W1 b1 W2 b2 s) (tower W1 b1 W2 b2 n)) j

/-- Rows `0 … 31` of a 64-row matrix. -/
abbrev upper (W : Fin 64 → Fin 4096 → EReal) : Fin 32 → Fin 4096 → EReal :=
  fun q k => W ⟨q.val, Nat.lt_of_lt_of_le q.isLt (by decide)⟩ k
/-- Rows `32 … 63` of a 64-row matrix. -/
abbrev lower (W : Fin 64 → Fin 4096 → EReal) : Fin 32 → Fin 4096 → EReal :=
  fun q k => W ⟨32 + q.val, Nat.add_lt_add_left q.isLt 32⟩ k

/-- A sum over 64 coordinates is the sum over the first 32 plus the sum over the last 32. -/
theorem sum_two_halves (f : Fin 64 → EReal) :
    ∑ q : Fin 64, f q
      = (∑ q : Fin 32, f ⟨q.val, Nat.lt_of_lt_of_le q.isLt (by decide)⟩)
        + (∑ q : Fin 32, f ⟨32 + q.val, Nat.add_lt_add_left q.isLt 32⟩) :=
  Fin.sum_univ_add (a := 32) (b := 32) f

/-- The whole result: entry `(R, j)` is output `j` of the network on row `R` of `state` and of `next_state`, the third
    layer's weight read as its two 32-row halves. Arguments in the order of the programs' arguments. -/
def network (x0 x1 : (⟨2, ![16384, 32]⟩ : Shape).Idx → EReal) (x2 : (⟨2, ![32, 4096]⟩ : Shape).Idx → EReal)
    (x3 : (⟨1, ![4096]⟩ : Shape).Idx → EReal) (x4 : (⟨2, ![4096, 32]⟩ : Shape).Idx → EReal) (x5 : (⟨1, ![32]⟩ : Shape).Idx → EReal)
    (x6 : (⟨2, ![64, 4096]⟩ : Shape).Idx → EReal) (x7 : (⟨1, ![4096]⟩ : Shape).Idx → EReal)
    (x8 : (⟨2, ![4096, 128]⟩ : Shape).Idx → EReal) (x9 : (⟨1, ![128]⟩ : Shape).Idx → EReal) :
    (⟨2, ![16384, 128]⟩ : Shape).Idx → EReal :=
  fun i => rowOut (mat x2) (vec x3) (mat x4) (vec x5) (upper (mat x6)) (lower (mat x6)) (vec x7) (mat x8) (vec x9)
    (row x0 (i 0)) (row x1 (i 0)) (i 1)

/-- At an index given by its coordinates. -/
theorem network_apply (x0 x1 : (⟨2, ![16384, 32]⟩ : Shape).Idx → EReal) (x2 : (⟨2, ![32, 4096]⟩ : Shape).Idx → EReal)
    (x3 : (⟨1, ![4096]⟩ : Shape).Idx → EReal) (x4 : (⟨2, ![4096, 32]⟩ : Shape).Idx → EReal) (x5 : (⟨1, ![32]⟩ : Shape).Idx → EReal)
    (x6 : (⟨2, ![64, 4096]⟩ : Shape).Idx → EReal) (x7 : (⟨1, ![4096]⟩ : Shape).Idx → EReal)
    (x8 : (⟨2, ![4096, 128]⟩ : Shape).Idx → EReal) (x9 : (⟨1, ![128]⟩ : Shape).Idx → EReal) (R : Fin 16384) (j : Fin 128) :
    network x0 x1 x2 x3 x4 x5 x6 x7 x8 x9 (ix2 R j)
      = rowOut (mat x2) (vec x3) (mat x4) (vec x5) (upper (mat x6)) (lower (mat x6)) (vec x7) (mat x8) (vec x9)
          (row x0 R) (row x1 R) j := rfl

end Cert.RowSpec

end
-- ==== Proof.RefRow.lean ====
/-
  The reference, read one batch row at a time.

  Every host operation of the reference acts on whole arrays of 16384 rows, but entry `(R, ·)` of each intermediate array depends
  on row `R` of `state` and `next_state` only: a matrix product's entry `(R, k)` contracts row `R` of its left operand with
  column `k` of the weight, a bias is broadcast down the rows, and the relu is pointwise. So each stage at `(R, k)` is the
  corresponding layer of `RowSpec` on row `R`. The concatenation puts the first tower's 32 outputs at columns `0 … 31` and the
  second tower's at columns `32 … 63`; the contraction over those 64 columns against the 64-row weight is split into its two halves
  (`RowSpec.sum_two_halves`), which is the form the third layer has in `RowSpec.joint`.
-/
import proofs.«101186_g11802570129985_cont_fleet_79_2_alg».proof.Proof.Gen.ReferenceIdeal.Read
import proofs.«101186_g11802570129985_cont_fleet_79_2_alg».proof.Proof.RowSpec

noncomputable section

open scoped BigOperators

namespace Cert.ReferenceIdeal.RefRow

open Cert.ReferenceIdeal Cert.ReferenceIdeal.Gen Cert.ReferenceIdeal.Read Idealize.ShloMosaic Idealize.ShloMosaic.ValueIdx Cert.RowSpec

variable (x0 x1 : (⟨S16384x32, .f32⟩ : BufTy).Contents (Elt Ideal)) (x2 : (⟨S32x4096, .f32⟩ : BufTy).Contents (Elt Ideal))
  (x3 : (⟨S4096, .f32⟩ : BufTy).Contents (Elt Ideal)) (x4 : (⟨S4096x32, .f32⟩ : BufTy).Contents (Elt Ideal))
  (x5 : (⟨S32, .f32⟩ : BufTy).Contents (Elt Ideal)) (x6 : (⟨S64x4096, .f32⟩ : BufTy).Contents (Elt Ideal))
  (x7 : (⟨S4096, .f32⟩ : BufTy).Contents (Elt Ideal)) (x8 : (⟨S4096x128, .f32⟩ : BufTy).Contents (Elt Ideal))
  (x9 : (⟨S128, .f32⟩ : BufTy).Contents (Elt Ideal))

/-! ## The tower on `state` -/

/-- `state · W1` at `(R, k)`: row `R` of `state` against column `k` of `W1`. -/
theorem dot1_state (R : Fin 16384) (k : Fin 4096) :
    val_main_v0 (F := Ideal) x0 x2 (ix2 R k) = ∑ p : Fin 32, x0 (ix2 R p) * x2 (ix2 p k) := by
  rw [val_main_v0_apply]
  refine Finset.sum_congr rfl fun p _ => ?_
  have el : lidx_main_v0 (ix2 R k) p = ix2 R p := funext fun a => Fin.ext (by match a with | ⟨0, _⟩ => rfl | ⟨1, _⟩ => rfl)
  have er : ridx_main_v0 (ix2 R k) p = ix2 p k := funext fun a => Fin.ext (by match a with | ⟨0, _⟩ => rfl | ⟨1, _⟩ => rfl)
  rw [el, er]

/-- `b1` broadcast down the rows. -/
theorem bias1_state (R : Fin 16384) (k : Fin 4096) : val_main_v2 (F := Ideal) x3 (ix2 R k) = x3 (ix1 k) := by
  rw [val_main_v2_apply, val_main_v1_apply]
  exact congrArg x3 (funext fun a => Fin.ext (by match a with | ⟨0, _⟩ => rfl))

/-- The relu's floor is zero. -/
theorem floor0 (i : S16384x4096.Idx) : val_main_call0_v0 (F := Ideal) i = 0 := by
  rw [val_main_call0_v0_apply, val_main_call0_cst_apply]
  exact Ideal.ofBits_zero_f32

theorem hidden_state (R : Fin 16384) (k : Fin 4096) :
    val_main_v4 (F := Ideal) x0 x2 x3 (ix2 R k) = hidden (mat x2) (vec x3) (row x0 R) k := by
  rw [val_main_v4_apply, val_main_v3_apply, dot1_state, bias1_state, floor0]
  rfl

/-- `hidden · W2` at `(R, q)`. -/
theorem dot2_state (R : Fin 16384) (q : Fin 32) :
    val_main_v5 (F := Ideal) x0 x2 x3 x4 (ix2 R q) = ∑ k : Fin 4096, hidden (mat x2) (vec x3) (row x0 R) k * x4 (ix2 k q) := by
  rw [val_main_v5_apply]
  refine Finset.sum_congr rfl fun k _ => ?_
  have el : lidx_main_v5 (ix2 R q) k = ix2 R k := funext fun a => Fin.ext (by match a with | ⟨0, _⟩ => rfl | ⟨1, _⟩ => rfl)
  have er : ridx_main_v5 (ix2 R q) k = ix2 k q := funext fun a => Fin.ext (by match a with | ⟨0, _⟩ => rfl | ⟨1, _⟩ => rfl)
  rw [el, er, hidden_state]

theorem bias2_state (R : Fin 16384) (q : Fin 32) : val_main_v7 (F := Ideal) x5 (ix2 R q) = x5 (ix1 q) := by
  rw [val_main_v7_apply, val_main_v6_apply]
  exact congrArg x5 (funext fun a => Fin.ext (by match a with | ⟨0, _⟩ => rfl))

theorem floor1 (i : S16384x32.Idx) : val_main_call1_v0 (F := Ideal) i = 0 := by
  rw [val_main_call1_v0_apply, val_main_call1_cst_apply]
  exact Ideal.ofBits_zero_f32

/-- The first tower's output at `(R, q)` is the tower on row `R` of `state`. -/
theorem tower_state (R : Fin 16384) (q : Fin 32) :
    val_main_v9 (F := Ideal) x0 x2 x3 x4 x5 (ix2 R q) = tower (mat x2) (vec x3) (mat x4) (vec x5) (row x0 R) q := by
  rw [val_main_v9_apply, val_main_v8_apply, dot2_state, bias2_state, floor1]
  rfl

/-! ## The tower on `next_state`: the same two layers, the same weights -/

theorem dot1_next (R : Fin 16384) (k : Fin 4096) :
    val_main_v10 (F := Ideal) x1 x2 (ix2 R k) = ∑ p : Fin 32, x1 (ix2 R p) * x2 (ix2 p k) := by
  rw [val_main_v10_apply]
  refine Finset.sum_congr rfl fun p _ => ?_
  have el : lidx_main_v10 (ix2 R k) p = ix2 R p := funext fun a => Fin.ext (by match a with | ⟨0, _⟩ => rfl | ⟨1, _⟩ => rfl)
  have er : ridx_main_v10 (ix2 R k) p = ix2 p k := funext fun a => Fin.ext (by match a with | ⟨0, _⟩ => rfl | ⟨1, _⟩ => rfl)
  rw [el, er]

theorem bias1_next (R : Fin 16384) (k : Fin 4096) : val_main_v12 (F := Ideal) x3 (ix2 R k) = x3 (ix1 k) := by
  rw [val_main_v12_apply, val_main_v11_apply]
  exact congrArg x3 (funext fun a => Fin.ext (by match a with | ⟨0, _⟩ => rfl))

theorem floor2 (i : S16384x4096.Idx) : val_main_call2_v0 (F := Ideal) i = 0 := by
  rw [val_main_call2_v0_apply, val_main_call2_cst_apply]
  exact Ideal.ofBits_zero_f32

theorem hidden_next (R : Fin 16384) (k : Fin 4096) :
    val_main_v14 (F := Ideal) x1 x2 x3 (ix2 R k) = hidden (mat x2) (vec x3) (row x1 R) k := by
  rw [val_main_v14_apply, val_main_v13_apply, dot1_next, bias1_next, floor2]
  rfl

theorem dot2_next (R : Fin 16384) (q : Fin 32) :
    val_main_v15 (F := Ideal) x1 x2 x3 x4 (ix2 R q) = ∑ k : Fin 4096, hidden (mat x2) (vec x3) (row x1 R) k * x4 (ix2 k q) := by
  rw [val_main_v15_apply]
  refine Finset.sum_congr rfl fun k _ => ?_
  have el : lidx_main_v15 (ix2 R q) k = ix2 R k := funext fun a => Fin.ext (by match a with | ⟨0, _⟩ => rfl | ⟨1, _⟩ => rfl)
  have er : ridx_main_v15 (ix2 R q) k = ix2 k q := funext fun a => Fin.ext (by match a with | ⟨0, _⟩ => rfl | ⟨1, _⟩ => rfl)
  rw [el, er, hidden_next]

theorem bias2_next (R : Fin 16384) (q : Fin 32) : val_main_v17 (F := Ideal) x5 (ix2 R q) = x5 (ix1 q) := by
  rw [val_main_v17_apply, val_main_v16_apply]
  exact congrArg x5 (funext fun a => Fin.ext (by match a with | ⟨0, _⟩ => rfl))

theorem floor3 (i : S16384x32.Idx) : val_main_call3_v0 (F := Ideal) i = 0 := by
  rw [val_main_call3_v0_apply, val_main_call3_cst_apply]
  exact Ideal.ofBits_zero_f32

/-- The second tower's output at `(R, q)` is the tower on row `R` of `next_state`. -/
theorem tower_next (R : Fin 16384) (q : Fin 32) :
    val_main_v19 (F := Ideal) x1 x2 x3 x4 x5 (ix2 R q) = tower (mat x2) (vec x3) (mat x4) (vec x5) (row x1 R) q := by
  rw [val_main_v19_apply, val_main_v18_apply, dot2_next, bias2_next, floor3]
  rfl

/-! ## The joined tower outputs -/

/-- Columns `0 … 31` of the concatenation are the first tower's outputs. -/
theorem cat_left (R : Fin 16384) (q : Fin 32) :
    val_main_v20 (F := Ideal) x0 x1 x2 x3 x4 x5 (ix2 R (⟨q.val, Nat.lt_of_lt_of_le q.isLt (by decide)⟩ : Fin 64))
      = val_main_v9 (F := Ideal) x0 x2 x3 x4 x5 (ix2 R q) := by
  unfold val_main_v20
  exact concatenate_pair_apply_left (t := S16384x64) (s₁ := S16384x32) (s₂ := S16384x32) 1 _ _ _
    (ix2 R (⟨q.val, Nat.lt_of_lt_of_le q.isLt (by decide)⟩ : Fin 64)) rfl (ix2 R q)
    (fun b => match b with | ⟨0, _⟩ => rfl | ⟨1, _⟩ => rfl)

/-- Columns `32 … 63` are the second tower's. -/
theorem cat_right (R : Fin 16384) (q : Fin 32) :
    val_main_v20 (F := Ideal) x0 x1 x2 x3 x4 x5 (ix2 R (⟨32 + q.val, Nat.add_lt_add_left q.isLt 32⟩ : Fin 64))
      = val_main_v19 (F := Ideal) x1 x2 x3 x4 x5 (ix2 R q) := by
  unfold val_main_v20
  exact concatenate_pair_apply_right (t := S16384x64) (s₁ := S16384x32) (s₂ := S16384x32) 1 _ _ _
    (ix2 R (⟨32 + q.val, Nat.add_lt_add_left q.isLt 32⟩ : Fin 64)) rfl rfl (ix2 R q)
    (fun b => match b with | ⟨0, _⟩ => fun _ => rfl | ⟨1, _⟩ => fun h => absurd rfl h)
    (Nat.add_comm _ _)

/-! ## The third layer and the head -/

/-- The contraction over the 64 joined columns at `(R, k)`, split into the two towers' halves. -/
theorem dot3 (R : Fin 16384) (k : Fin 4096) :
    val_main_v21 (F := Ideal) x0 x1 x2 x3 x4 x5 x6 (ix2 R k)
      = (∑ q : Fin 32, tower (mat x2) (vec x3) (mat x4) (vec x5) (row x0 R) q * upper (mat x6) q k)
        + (∑ q : Fin 32, tower (mat x2) (vec x3) (mat x4) (vec x5) (row x1 R) q * lower (mat x6) q k) := by
  rw [val_main_v21_apply]
  have e : ∀ q : Fin 64, val_main_v20 (F := Ideal) x0 x1 x2 x3 x4 x5 (lidx_main_v21 (ix2 R k) q) * x6 (ridx_main_v21 (ix2 R k) q)
      = val_main_v20 (F := Ideal) x0 x1 x2 x3 x4 x5 (ix2 R q) * x6 (ix2 q k) := fun q => by
    have el : lidx_main_v21 (ix2 R k) q = ix2 R q := funext fun a => Fin.ext (by match a with | ⟨0, _⟩ => rfl | ⟨1, _⟩ => rfl)
    have er : ridx_main_v21 (ix2 R k) q = ix2 q k := funext fun a => Fin.ext (by match a with | ⟨0, _⟩ => rfl | ⟨1, _⟩ => rfl)
    rw [el, er]
  rw [Finset.sum_congr rfl fun q _ => e q]
  refine (sum_two_halves fun q => val_main_v20 (F := Ideal) x0 x1 x2 x3 x4 x5 (ix2 R q) * x6 (ix2 q k)).trans ?_
  refine congrArg₂ (· + ·) (Finset.sum_congr rfl fun q _ => ?_) (Finset.sum_congr rfl fun q _ => ?_)
  · show val_main_v20 (F := Ideal) x0 x1 x2 x3 x4 x5 (ix2 R (⟨q.val, Nat.lt_of_lt_of_le q.isLt (by decide)⟩ : Fin 64)) * _ = _
    rw [cat_left, tower_state]
  · show val_main_v20 (F := Ideal) x0 x1 x2 x3 x4 x5 (ix2 R (⟨32 + q.val, Nat.add_lt_add_left q.isLt 32⟩ : Fin 64)) * _ = _
    rw [cat_right, tower_next]

theorem bias3 (R : Fin 16384) (k : Fin 4096) : val_main_v23 (F := Ideal) x7 (ix2 R k) = x7 (ix1 k) := by
  rw [val_main_v23_apply, val_main_v22_apply]
  exact congrArg x7 (funext fun a => Fin.ext (by match a with | ⟨0, _⟩ => rfl))

theorem floor4 (i : S16384x4096.Idx) : val_main_call4_v0 (F := Ideal) i = 0 := by
  rw [val_main_call4_v0_apply, val_main_call4_cst_apply]
  exact Ideal.ofBits_zero_f32

theorem joint_row (R : Fin 16384) (k : Fin 4096) :
    val_main_v25 (F := Ideal) x0 x1 x2 x3 x4 x5 x6 x7 (ix2 R k)
      = joint (upper (mat x6)) (lower (mat x6)) (vec x7) (tower (mat x2) (vec x3) (mat x4) (vec x5) (row x0 R))
          (tower (mat x2) (vec x3) (mat x4) (vec x5) (row x1 R)) k := by
  rw [val_main_v25_apply, val_main_v24_apply, dot3, bias3, floor4]
  rfl

theorem dot4 (R : Fin 16384) (j : Fin 128) :
    val_main_v26 (F := Ideal) x0 x1 x2 x3 x4 x5 x6 x7 x8 (ix2 R j)
      = ∑ k : Fin 4096, joint (upper (mat x6)) (lower (mat x6)) (vec x7) (tower (mat x2) (vec x3) (mat x4) (vec x5) (row x0 R))
          (tower (mat x2) (vec x3) (mat x4) (vec x5) (row x1 R)) k * x8 (ix2 k j) := by
  rw [val_main_v26_apply]
  refine Finset.sum_congr rfl fun k _ => ?_
  have el : lidx_main_v26 (ix2 R j) k = ix2 R k := funext fun a => Fin.ext (by match a with | ⟨0, _⟩ => rfl | ⟨1, _⟩ => rfl)
  have er : ridx_main_v26 (ix2 R j) k = ix2 k j := funext fun a => Fin.ext (by match a with | ⟨0, _⟩ => rfl | ⟨1, _⟩ => rfl)
  rw [el, er, joint_row]

theorem bias4 (R : Fin 16384) (j : Fin 128) : val_main_v28 (F := Ideal) x9 (ix2 R j) = x9 (ix1 j) := by
  rw [val_main_v28_apply, val_main_v27_apply]
  exact congrArg x9 (funext fun a => Fin.ext (by match a with | ⟨0, _⟩ => rfl))

/-- THE REFERENCE'S RESULT is `RowSpec.network` of its arguments. -/
theorem result_eq : val_main_v29 (F := Ideal) x0 x1 x2 x3 x4 x5 x6 x7 x8 x9 = network x0 x1 x2 x3 x4 x5 x6 x7 x8 x9 := by
  funext i
  obtain ⟨R, j, rfl⟩ : ∃ (R : Fin 16384) (j : Fin 128), i = ix2 R j := ⟨i 0, i 1, eq_ix2 i⟩
  rw [val_main_v29_apply, dot4, bias4, network_apply]
  rfl

end Cert.ReferenceIdeal.RefRow

end
-- ==== Proof.KerRow.lean ====
/-
  The kernel's body on one block, read one row at a time.

  At a grid point the body holds a 512-row block of `state` and of `next_state` and the whole weights. Its three values are the
  tower on the `state` block, the tower on the `next_state` block, and, from those two, the third layer and the head. A
  `tpu.matmul` into a zero accumulator is the plain contraction at the extended reals, so entry `(y, c)` of each value is the
  corresponding layer of `RowSpec` on row `y` of the blocks: the bias blocks are one row broadcast down the 512 rows, the relu is
  the maximum with a splat zero, and the third layer already adds the contractions of the two towers against the two halves of its
  weight, which is how `RowSpec.joint` is written.
-/
import proofs.«101186_g11802570129985_cont_fleet_79_2_alg».proof.Proof.Gen.KernelIdeal.Skeleton
import proofs.«101186_g11802570129985_cont_fleet_79_2_alg».proof.Proof.RowSpec
import Idealize.ShloMosaic.Lib.Pipeline.Value
import Idealize.ShloMosaic.Lib.ValueIdx
import Idealize.ShloMosaic.PureOps.Ideal.Laws

noncomputable section

open scoped BigOperators

namespace Cert.KernelIdeal.KerRow

open Cert.KernelIdeal Cert.KernelIdeal.Gen Idealize.ShloMosaic Idealize.ShloMosaic.ValueIdx Cert.RowSpec

/-! ## The three matrix products at an entry -/

theorem lhs_mmIn_0 (i : S512x4096.Idx) (q : dot_S512x32_S32x4096_S512x4096_1_0_0_1_n_n.contr.Idx) :
    (dot_S512x32_S32x4096_S512x4096_1_0_0_1_n_n.lhsIdx i q 0).val = (i 0).val := by
  unfold DotDims.lhsIdx
  rw [dif_neg (show ¬(0 : Fin S512x32.rank) ∈ dot_S512x32_S32x4096_S512x4096_1_0_0_1_n_n.lhsBatch by decide), dif_pos (show (0 : Fin S512x32.rank) ∈ dot_S512x32_S32x4096_S512x4096_1_0_0_1_n_n.lhsNonContracting by decide)]
  rfl
theorem lhs_mmIn_1 (i : S512x4096.Idx) (q : dot_S512x32_S32x4096_S512x4096_1_0_0_1_n_n.contr.Idx) :
    (dot_S512x32_S32x4096_S512x4096_1_0_0_1_n_n.lhsIdx i q 1).val = (q ⟨0, by decide⟩).val :=
  dot_S512x32_S32x4096_S512x4096_1_0_0_1_n_n.lhsIdx_val_of_single rfl i q
theorem rhs_mmIn_0 (i : S512x4096.Idx) (q : dot_S512x32_S32x4096_S512x4096_1_0_0_1_n_n.contr.Idx) :
    (dot_S512x32_S32x4096_S512x4096_1_0_0_1_n_n.rhsIdx i q 0).val = (q ⟨0, by decide⟩).val :=
  dot_S512x32_S32x4096_S512x4096_1_0_0_1_n_n.rhsIdx_val_of_single rfl i q
theorem rhs_mmIn_1 (i : S512x4096.Idx) (q : dot_S512x32_S32x4096_S512x4096_1_0_0_1_n_n.contr.Idx) :
    (dot_S512x32_S32x4096_S512x4096_1_0_0_1_n_n.rhsIdx i q 1).val = (i 1).val := by
  unfold DotDims.rhsIdx
  rw [dif_neg (show ¬(1 : Fin S32x4096.rank) ∈ dot_S512x32_S32x4096_S512x4096_1_0_0_1_n_n.rhsBatch by decide), dif_pos (show (1 : Fin S32x4096.rank) ∈ dot_S512x32_S32x4096_S512x4096_1_0_0_1_n_n.rhsNonContracting by decide)]
  rfl

/-- A 512 × 32 block against a 32 × 4096 weight: entry `(y, c)` contracts row `y` with column `c`. -/
theorem mmIn (l : FVec Ideal S512x32 .f32) (r : FVec Ideal S32x4096 .f32) (y : Fin 512) (c : Fin 4096) :
    matmul dot_S512x32_S32x4096_S512x4096_1_0_0_1_n_n none l r (constant (F := Ideal) S512x4096 .f32 0x00000000#32) (ix2 y c)
      = ∑ k : Fin 32, l (ix2 y k) * r (ix2 k c) := by
  show FloatOps.matmul dot_S512x32_S32x4096_S512x4096_1_0_0_1_n_n none l r (constant (F := Ideal) S512x4096 .f32 0x00000000#32) (ix2 y c) = _
  rw [Ideal.matmul_constant_zero_apply, ← Equiv.sum_comp (ValueIdx.contrEquiv1 dot_S512x32_S32x4096_S512x4096_1_0_0_1_n_n 32 rfl rfl).symm]
  refine Finset.sum_congr rfl fun k _ => ?_
  have hk := ValueIdx.contrEquiv1_symm_val dot_S512x32_S32x4096_S512x4096_1_0_0_1_n_n 32 rfl rfl k
  have el : dot_S512x32_S32x4096_S512x4096_1_0_0_1_n_n.lhsIdx (ix2 y c) ((ValueIdx.contrEquiv1 dot_S512x32_S32x4096_S512x4096_1_0_0_1_n_n 32 rfl rfl).symm k) = ix2 y k := funext fun a => Fin.ext (by
    match a with
    | ⟨0, _⟩ => exact lhs_mmIn_0 _ _
    | ⟨1, _⟩ => exact (lhs_mmIn_1 _ _).trans hk)
  have er : dot_S512x32_S32x4096_S512x4096_1_0_0_1_n_n.rhsIdx (ix2 y c) ((ValueIdx.contrEquiv1 dot_S512x32_S32x4096_S512x4096_1_0_0_1_n_n 32 rfl rfl).symm k) = ix2 k c := funext fun a => Fin.ext (by
    match a with
    | ⟨0, _⟩ => exact (rhs_mmIn_0 _ _).trans hk
    | ⟨1, _⟩ => exact rhs_mmIn_1 _ _)
  rw [el, er]

theorem lhs_mmMid_0 (i : S512x32.Idx) (q : dot_S512x4096_S4096x32_S512x32_1_0_0_1_n_n.contr.Idx) :
    (dot_S512x4096_S4096x32_S512x32_1_0_0_1_n_n.lhsIdx i q 0).val = (i 0).val := by
  unfold DotDims.lhsIdx
  rw [dif_neg (show ¬(0 : Fin S512x4096.rank) ∈ dot_S512x4096_S4096x32_S512x32_1_0_0_1_n_n.lhsBatch by decide), dif_pos (show (0 : Fin S512x4096.rank) ∈ dot_S512x4096_S4096x32_S512x32_1_0_0_1_n_n.lhsNonContracting by decide)]
  rfl
theorem lhs_mmMid_1 (i : S512x32.Idx) (q : dot_S512x4096_S4096x32_S512x32_1_0_0_1_n_n.contr.Idx) :
    (dot_S512x4096_S4096x32_S512x32_1_0_0_1_n_n.lhsIdx i q 1).val = (q ⟨0, by decide⟩).val :=
  dot_S512x4096_S4096x32_S512x32_1_0_0_1_n_n.lhsIdx_val_of_single rfl i q
theorem rhs_mmMid_0 (i : S512x32.Idx) (q : dot_S512x4096_S4096x32_S512x32_1_0_0_1_n_n.contr.Idx) :
    (dot_S512x4096_S4096x32_S512x32_1_0_0_1_n_n.rhsIdx i q 0).val = (q ⟨0, by decide⟩).val :=
  dot_S512x4096_S4096x32_S512x32_1_0_0_1_n_n.rhsIdx_val_of_single rfl i q
theorem rhs_mmMid_1 (i : S512x32.Idx) (q : dot_S512x4096_S4096x32_S512x32_1_0_0_1_n_n.contr.Idx) :
    (dot_S512x4096_S4096x32_S512x32_1_0_0_1_n_n.rhsIdx i q 1).val = (i 1).val := by
  unfold DotDims.rhsIdx
  rw [dif_neg (show ¬(1 : Fin S4096x32.rank) ∈ dot_S512x4096_S4096x32_S512x32_1_0_0_1_n_n.rhsBatch by decide), dif_pos (show (1 : Fin S4096x32.rank) ∈ dot_S512x4096_S4096x32_S512x32_1_0_0_1_n_n.rhsNonContracting by decide)]
  rfl

/-- A 512 × 4096 value against the 4096 × 32 weight. -/
theorem mmMid (l : FVec Ideal S512x4096 .f32) (r : FVec Ideal S4096x32 .f32) (y : Fin 512) (c : Fin 32) :
    matmul dot_S512x4096_S4096x32_S512x32_1_0_0_1_n_n none l r (constant (F := Ideal) S512x32 .f32 0x00000000#32) (ix2 y c)
      = ∑ k : Fin 4096, l (ix2 y k) * r (ix2 k c) := by
  show FloatOps.matmul dot_S512x4096_S4096x32_S512x32_1_0_0_1_n_n none l r (constant (F := Ideal) S512x32 .f32 0x00000000#32) (ix2 y c) = _
  rw [Ideal.matmul_constant_zero_apply, ← Equiv.sum_comp (ValueIdx.contrEquiv1 dot_S512x4096_S4096x32_S512x32_1_0_0_1_n_n 4096 rfl rfl).symm]
  refine Finset.sum_congr rfl fun k _ => ?_
  have hk := ValueIdx.contrEquiv1_symm_val dot_S512x4096_S4096x32_S512x32_1_0_0_1_n_n 4096 rfl rfl k
  have el : dot_S512x4096_S4096x32_S512x32_1_0_0_1_n_n.lhsIdx (ix2 y c) ((ValueIdx.contrEquiv1 dot_S512x4096_S4096x32_S512x32_1_0_0_1_n_n 4096 rfl rfl).symm k) = ix2 y k := funext fun a => Fin.ext (by
    match a with
    | ⟨0, _⟩ => exact lhs_mmMid_0 _ _
    | ⟨1, _⟩ => exact (lhs_mmMid_1 _ _).trans hk)
  have er : dot_S512x4096_S4096x32_S512x32_1_0_0_1_n_n.rhsIdx (ix2 y c) ((ValueIdx.contrEquiv1 dot_S512x4096_S4096x32_S512x32_1_0_0_1_n_n 4096 rfl rfl).symm k) = ix2 k c := funext fun a => Fin.ext (by
    match a with
    | ⟨0, _⟩ => exact (rhs_mmMid_0 _ _).trans hk
    | ⟨1, _⟩ => exact rhs_mmMid_1 _ _)
  rw [el, er]

theorem lhs_mmOut_0 (i : S512x128.Idx) (q : dot_S512x4096_S4096x128_S512x128_1_0_0_1_n_n.contr.Idx) :
    (dot_S512x4096_S4096x128_S512x128_1_0_0_1_n_n.lhsIdx i q 0).val = (i 0).val := by
  unfold DotDims.lhsIdx
  rw [dif_neg (show ¬(0 : Fin S512x4096.rank) ∈ dot_S512x4096_S4096x128_S512x128_1_0_0_1_n_n.lhsBatch by decide), dif_pos (show (0 : Fin S512x4096.rank) ∈ dot_S512x4096_S4096x128_S512x128_1_0_0_1_n_n.lhsNonContracting by decide)]
  rfl
theorem lhs_mmOut_1 (i : S512x128.Idx) (q : dot_S512x4096_S4096x128_S512x128_1_0_0_1_n_n.contr.Idx) :
    (dot_S512x4096_S4096x128_S512x128_1_0_0_1_n_n.lhsIdx i q 1).val = (q ⟨0, by decide⟩).val :=
  dot_S512x4096_S4096x128_S512x128_1_0_0_1_n_n.lhsIdx_val_of_single rfl i q
theorem rhs_mmOut_0 (i : S512x128.Idx) (q : dot_S512x4096_S4096x128_S512x128_1_0_0_1_n_n.contr.Idx) :
    (dot_S512x4096_S4096x128_S512x128_1_0_0_1_n_n.rhsIdx i q 0).val = (q ⟨0, by decide⟩).val :=
  dot_S512x4096_S4096x128_S512x128_1_0_0_1_n_n.rhsIdx_val_of_single rfl i q
theorem rhs_mmOut_1 (i : S512x128.Idx) (q : dot_S512x4096_S4096x128_S512x128_1_0_0_1_n_n.contr.Idx) :
    (dot_S512x4096_S4096x128_S512x128_1_0_0_1_n_n.rhsIdx i q 1).val = (i 1).val := by
  unfold DotDims.rhsIdx
  rw [dif_neg (show ¬(1 : Fin S4096x128.rank) ∈ dot_S512x4096_S4096x128_S512x128_1_0_0_1_n_n.rhsBatch by decide), dif_pos (show (1 : Fin S4096x128.rank) ∈ dot_S512x4096_S4096x128_S512x128_1_0_0_1_n_n.rhsNonContracting by decide)]
  rfl

/-- A 512 × 4096 value against the 4096 × 128 weight. -/
theorem mmOut (l : FVec Ideal S512x4096 .f32) (r : FVec Ideal S4096x128 .f32) (y : Fin 512) (c : Fin 128) :
    matmul dot_S512x4096_S4096x128_S512x128_1_0_0_1_n_n none l r (constant (F := Ideal) S512x128 .f32 0x00000000#32) (ix2 y c)
      = ∑ k : Fin 4096, l (ix2 y k) * r (ix2 k c) := by
  show FloatOps.matmul dot_S512x4096_S4096x128_S512x128_1_0_0_1_n_n none l r (constant (F := Ideal) S512x128 .f32 0x00000000#32) (ix2 y c) = _
  rw [Ideal.matmul_constant_zero_apply, ← Equiv.sum_comp (ValueIdx.contrEquiv1 dot_S512x4096_S4096x128_S512x128_1_0_0_1_n_n 4096 rfl rfl).symm]
  refine Finset.sum_congr rfl fun k _ => ?_
  have hk := ValueIdx.contrEquiv1_symm_val dot_S512x4096_S4096x128_S512x128_1_0_0_1_n_n 4096 rfl rfl k
  have el : dot_S512x4096_S4096x128_S512x128_1_0_0_1_n_n.lhsIdx (ix2 y c) ((ValueIdx.contrEquiv1 dot_S512x4096_S4096x128_S512x128_1_0_0_1_n_n 4096 rfl rfl).symm k) = ix2 y k := funext fun a => Fin.ext (by
    match a with
    | ⟨0, _⟩ => exact lhs_mmOut_0 _ _
    | ⟨1, _⟩ => exact (lhs_mmOut_1 _ _).trans hk)
  have er : dot_S512x4096_S4096x128_S512x128_1_0_0_1_n_n.rhsIdx (ix2 y c) ((ValueIdx.contrEquiv1 dot_S512x4096_S4096x128_S512x128_1_0_0_1_n_n 4096 rfl rfl).symm k) = ix2 k c := funext fun a => Fin.ext (by
    match a with
    | ⟨0, _⟩ => exact (rhs_mmOut_0 _ _).trans hk
    | ⟨1, _⟩ => exact rhs_mmOut_1 _ _)
  rw [el, er]

/-! ## The bias blocks: one row, broadcast down the 512 rows -/

theorem biasRow4096 {α : Type} (v : S1x4096.Idx → α) (h2 : S1x4096.Broadcasts S512x4096) :
    broadcastTo S512x4096 v h2 = fun i => v (ix2 (0 : Fin 1) (⟨(i 1).val, (i 1).isLt⟩ : Fin 4096)) := by
  funext i
  exact broadcastTo_apply v h2 i (ix2 (0 : Fin 1) (⟨(i 1).val, (i 1).isLt⟩ : Fin 4096)) (fun a => match a with
    | ⟨0, _⟩ => by show (0 : Nat) = if (1 : Nat) = 1 then 0 else _; rw [if_pos rfl]
    | ⟨1, _⟩ => by show (i 1).val = if (4096 : Nat) = 1 then 0 else _; rw [if_neg (by decide)]; rfl)

theorem biasRow32 {α : Type} (v : S1x32.Idx → α) (h2 : S1x32.Broadcasts S512x32) :
    broadcastTo S512x32 v h2 = fun i => v (ix2 (0 : Fin 1) (⟨(i 1).val, (i 1).isLt⟩ : Fin 32)) := by
  funext i
  exact broadcastTo_apply v h2 i (ix2 (0 : Fin 1) (⟨(i 1).val, (i 1).isLt⟩ : Fin 32)) (fun a => match a with
    | ⟨0, _⟩ => by show (0 : Nat) = if (1 : Nat) = 1 then 0 else _; rw [if_pos rfl]
    | ⟨1, _⟩ => by show (i 1).val = if (32 : Nat) = 1 then 0 else _; rw [if_neg (by decide)]; rfl)

theorem biasRow128 {α : Type} (v : S1x128.Idx → α) (h2 : S1x128.Broadcasts S512x128) :
    broadcastTo S512x128 v h2 = fun i => v (ix2 (0 : Fin 1) (⟨(i 1).val, (i 1).isLt⟩ : Fin 128)) := by
  funext i
  exact broadcastTo_apply v h2 i (ix2 (0 : Fin 1) (⟨(i 1).val, (i 1).isLt⟩ : Fin 128)) (fun a => match a with
    | ⟨0, _⟩ => by show (0 : Nat) = if (1 : Nat) = 1 then 0 else _; rw [if_pos rfl]
    | ⟨1, _⟩ => by show (i 1).val = if (128 : Nat) = 1 then 0 else _; rw [if_neg (by decide)]; rfl)

/-! ## The body's three values at an entry

The relu's floor is a splat of the zero word, which is the real number zero. -/

/-- Entry `(y, q)` of the tower's value on the \`state\` block is the tower on row `y` of that block. -/
theorem tower_state_blk (v0 : Vec Ideal S32x4096 .f32) (v1 : Vec Ideal S4096x32 .f32) (v2 : Vec Ideal S512x32 .f32) (v4 : Vec Ideal S1x4096 .f32)
    (v11 : Vec Ideal S1x32 .f32) (y : Fin 512) (q : Fin 32) :
    k0_pay2 (F := Ideal) v0 v1 v2 v4 v11 (ix2 y q)
      = tower (mat v0) (fun k => v4 (ix2 0 k)) (mat v1) (fun q => v11 (ix2 0 q)) (row v2 y) q := by
  unfold k0_pay2
  simp only [maximumf_apply, addf_apply, broadcast_apply, shapeCast_self, biasRow4096, biasRow32]
  rw [mmMid]
  simp only [maximumf_apply, addf_apply, broadcast_apply, mmIn, Ideal.ofBits_def, Ideal.ofBits_zero_f32]
  rfl

/-- Entry `(y, q)` of the tower's value on the \`next_state\` block is the tower on row `y` of that block. -/
theorem tower_next_blk (v0 : Vec Ideal S32x4096 .f32) (v1 : Vec Ideal S4096x32 .f32) (v17 : Vec Ideal S512x32 .f32) (v19 : Vec Ideal S1x4096 .f32)
    (v26 : Vec Ideal S1x32 .f32) (y : Fin 512) (q : Fin 32) :
    k0_pay3 (F := Ideal) v0 v1 v17 v19 v26 (ix2 y q)
      = tower (mat v0) (fun k => v19 (ix2 0 k)) (mat v1) (fun q => v26 (ix2 0 q)) (row v17 y) q := by
  unfold k0_pay3
  simp only [maximumf_apply, addf_apply, broadcast_apply, shapeCast_self, biasRow4096, biasRow32]
  rw [mmMid]
  simp only [maximumf_apply, addf_apply, broadcast_apply, mmIn, Ideal.ofBits_def, Ideal.ofBits_zero_f32]
  rfl

/-- Entry `(y, j)` of the stored value, from the two tower values `u`, `w`: the head on the third layer of rows `y` of `u` and `w`,
    the third layer's weight arriving as its two halves `wa`, `wb`. -/
theorem head_blk (u w : FVec Ideal S512x32 .f32) (wa wb : Vec Ideal S32x4096 .f32) (b3 : Vec Ideal S1x4096 .f32)
    (w4 : Vec Ideal S4096x128 .f32) (b4 : Vec Ideal S1x128 .f32) (y : Fin 512) (j : Fin 128) :
    k0_pay1 (F := Ideal) u w wa wb b3 w4 b4 (ix2 y j)
      = head (mat w4) (fun j => b4 (ix2 0 j)) (joint (mat wa) (mat wb) (fun k => b3 (ix2 0 k)) (row u y) (row w y)) j := by
  unfold k0_pay1
  simp only [maximumf_apply, addf_apply, broadcast_apply, shapeCast_self, biasRow4096, biasRow128]
  rw [mmOut]
  simp only [maximumf_apply, addf_apply, broadcast_apply, mmIn, Ideal.ofBits_def, Ideal.ofBits_zero_f32]
  rfl

/-- THE BODY'S STORED BLOCK at `(y, j)`, from the eleven input blocks: output `j` of the network on row `y` of the `state` block and
    of the `next_state` block. -/
theorem body_blk (s n : Vec Ideal S512x32 .f32) (w1 : Vec Ideal S32x4096 .f32) (b1 : Vec Ideal S1x4096 .f32) (w2 : Vec Ideal S4096x32 .f32)
    (b2 : Vec Ideal S1x32 .f32) (wa wb : Vec Ideal S32x4096 .f32) (b3 : Vec Ideal S1x4096 .f32) (w4 : Vec Ideal S4096x128 .f32)
    (b4 : Vec Ideal S1x128 .f32) (y : Fin 512) (j : Fin 128) :
    k0_pay1 (F := Ideal) (k0_pay2 w1 w2 s b1 b2) (k0_pay3 w1 w2 n b1 b2) wa wb b3 w4 b4 (ix2 y j)
      = rowOut (mat w1) (fun k => b1 (ix2 0 k)) (mat w2) (fun q => b2 (ix2 0 q)) (mat wa) (mat wb) (fun k => b3 (ix2 0 k))
          (mat w4) (fun j => b4 (ix2 0 j)) (row s y) (row n y) j := by
  rw [head_blk]
  have eu : row (k0_pay2 (F := Ideal) w1 w2 s b1 b2) y = tower (mat w1) (fun k => b1 (ix2 0 k)) (mat w2) (fun q => b2 (ix2 0 q)) (row s y) :=
    funext fun q => tower_state_blk w1 w2 s b1 b2 y q
  have ew : row (k0_pay3 (F := Ideal) w1 w2 n b1 b2) y = tower (mat w1) (fun k => b1 (ix2 0 k)) (mat w2) (fun q => b2 (ix2 0 q)) (row n y) :=
    funext fun q => tower_next_blk w1 w2 n b1 b2 y q
  rw [eu, ew]
  rfl

end Cert.KernelIdeal.KerRow

end
-- ==== Proof.KernelWhole.lean ====
/-
  From the blocks to the array.

  The grid has 32 points. At point `t` the two input windows hold rows `512 t … 512 t + 511` of `state` and of `next_state`, the
  nine weight and bias windows hold their whole arrays at every point, and the output window writes back rows
  `512 t … 512 t + 511` of the result. Six host operations run before the region: the third layer's weight is sliced into its rows
  `0 … 31` and `32 … 63`, and the four bias vectors are reshaped to one-row matrices. So the body's stored block
  (`KerRow.body_blk`) is, row by row, `RowSpec.network` of the ARGUMENT arrays read at rows `512 t + y`; the 32 blocks
  tile the 16384 rows, hence the result array is `RowSpec.network` of the arguments.
-/
import proofs.«101186_g11802570129985_cont_fleet_79_2_alg».proof.Proof.Gen.KernelIdeal.Value
import proofs.«101186_g11802570129985_cont_fleet_79_2_alg».proof.Proof.KerRow
import Idealize.ShloMosaic.Lib.Pipeline.Value
import Idealize.ShloMosaic.Lib.StableHlo.Run

noncomputable section

open scoped BigOperators

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.RowSpec
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The windows' index maps, decided over the 32 points -/

/-- The two input windows and the output window are at block row `t`; every other window stays at block `(0, 0)`. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0) :=
  (by decide +kernel : ∀ t : Fin grid0.N, _)

/-! ## What the host operations before the region leave -/

/-- Rows `0 … 31` of the third layer's weight. -/
theorem V_upper (c : Dev nD) :
    (V m c main_v0 : S32x4096.Idx → EReal)
      = extractStridedSlice S32x4096 ![0, 0] (m ((c : Thread nD τ).loc main_arg6)) slices_S64x4096_S32x4096_0_0 := by
  dsimp only [Gen.V, Gen.hostOps0]; after_results

/-- Rows `32 … 63`. -/
theorem V_lower (c : Dev nD) :
    (V m c main_v1 : S32x4096.Idx → EReal)
      = extractStridedSlice S32x4096 ![32, 0] (m ((c : Thread nD τ).loc main_arg6)) slices_S64x4096_S32x4096_32_0 := by
  dsimp only [Gen.V, Gen.hostOps0]; after_results

theorem V_b1 (c : Dev nD) :
    (V m c main_v2 : S1x4096.Idx → EReal) = shapeCast S1x4096 (m ((c : Thread nD τ).loc main_arg3)) shapeCasts_S4096_S1x4096 := by
  dsimp only [Gen.V, Gen.hostOps0]; after_results; rfl

theorem V_b2 (c : Dev nD) :
    (V m c main_v3 : S1x32.Idx → EReal) = shapeCast S1x32 (m ((c : Thread nD τ).loc main_arg5)) shapeCasts_S32_S1x32 := by
  dsimp only [Gen.V, Gen.hostOps0]; after_results; rfl

theorem V_b3 (c : Dev nD) :
    (V m c main_v4 : S1x4096.Idx → EReal) = shapeCast S1x4096 (m ((c : Thread nD τ).loc main_arg7)) shapeCasts_S4096_S1x4096 := by
  dsimp only [Gen.V, Gen.hostOps0]; after_results; rfl

theorem V_b4 (c : Dev nD) :
    (V m c main_v5 : S1x128.Idx → EReal) = shapeCast S1x128 (m ((c : Thread nD τ).loc main_arg9)) shapeCasts_S128_S1x128 := by
  dsimp only [Gen.V, Gen.hostOps0]; after_results; rfl

/-! ## Each input window's block, read off its array -/

/-- Point `t`'s block of `state` is rows `512 t … 512 t + 511`. -/
theorem blk0 (c : Dev nD) (t : Fin cfg0.N) (x : S512x32.Idx) (k : S16384x32.Idx)
    (hk0 : (k 0).val = 512 * t.val + (x 0).val) (hk1 : (k 1).val = (x 1).val) :
    (iblk m c 0 t : Vec Ideal S512x32 .f32) x = (V m c main_arg0 : S16384x32.Idx → EReal) k := by
  obtain ⟨⟨e0, e1⟩, -, -, -, -, -, -, -, -, -, -, -⟩ := idx_facts t
  unfold iblk
  rw [View.read_apply]
  show V m c main_arg0 _ = V m c main_arg0 _
  congr 1
  funext a
  apply Fin.ext
  match a with
  | ⟨0, _⟩ => show win0_0.index t (0 : Fin 2) * 512 + 1 * (x 0).val = (k 0).val; rw [e0, hk0]; omega
  | ⟨1, _⟩ => show win0_0.index t (1 : Fin 2) * 32 + 1 * (x 1).val = (k 1).val; rw [e1, hk1]; omega

/-- Point `t`'s block of `next_state` is rows `512 t … 512 t + 511`. -/
theorem blk1 (c : Dev nD) (t : Fin cfg0.N) (x : S512x32.Idx) (k : S16384x32.Idx)
    (hk0 : (k 0).val = 512 * t.val + (x 0).val) (hk1 : (k 1).val = (x 1).val) :
    (iblk m c 1 t : Vec Ideal S512x32 .f32) x = (V m c main_arg1 : S16384x32.Idx → EReal) k := by
  obtain ⟨-, ⟨e0, e1⟩, -, -, -, -, -, -, -, -, -, -⟩ := idx_facts t
  unfold iblk
  rw [View.read_apply]
  show V m c main_arg1 _ = V m c main_arg1 _
  congr 1
  funext a
  apply Fin.ext
  match a with
  | ⟨0, _⟩ => show win0_1.index t (0 : Fin 2) * 512 + 1 * (x 0).val = (k 0).val; rw [e0, hk0]; omega
  | ⟨1, _⟩ => show win0_1.index t (1 : Fin 2) * 32 + 1 * (x 1).val = (k 1).val; rw [e1, hk1]; omega

/-- The whole first weight at every point. -/
theorem blk2 (c : Dev nD) (t : Fin cfg0.N) (x : S32x4096.Idx) (k : S32x4096.Idx)
    (hk0 : (k 0).val = (x 0).val) (hk1 : (k 1).val = (x 1).val) :
    (iblk m c 2 t : Vec Ideal S32x4096 .f32) x = (V m c main_arg2 : S32x4096.Idx → EReal) k := by
  obtain ⟨-, -, ⟨e0, e1⟩, -, -, -, -, -, -, -, -, -⟩ := idx_facts t
  unfold iblk
  rw [View.read_apply]
  show V m c main_arg2 _ = V m c main_arg2 _
  congr 1
  funext a
  apply Fin.ext
  match a with
  | ⟨0, _⟩ => show win0_2.index t (0 : Fin 2) * 32 + 1 * (x 0).val = (k 0).val; rw [e0, hk0]; omega
  | ⟨1, _⟩ => show win0_2.index t (1 : Fin 2) * 4096 + 1 * (x 1).val = (k 1).val; rw [e1, hk1]; omega

/-- The whole first bias row at every point. -/
theorem blk3 (c : Dev nD) (t : Fin cfg0.N) (x : S1x4096.Idx) (k : S1x4096.Idx)
    (hk0 : (k 0).val = (x 0).val) (hk1 : (k 1).val = (x 1).val) :
    (iblk m c 3 t : Vec Ideal S1x4096 .f32) x = (V m c main_v2 : S1x4096.Idx → EReal) k := by
  obtain ⟨-, -, -, ⟨e0, e1⟩, -, -, -, -, -, -, -, -⟩ := idx_facts t
  unfold iblk
  rw [View.read_apply]
  show V m c main_v2 _ = V m c main_v2 _
  congr 1
  funext a
  apply Fin.ext
  match a with
  | ⟨0, _⟩ => show win0_3.index t (0 : Fin 2) * 1 + 1 * (x 0).val = (k 0).val; rw [e0, hk0]; omega
  | ⟨1, _⟩ => show win0_3.index t (1 : Fin 2) * 4096 + 1 * (x 1).val = (k 1).val; rw [e1, hk1]; omega

/-- The whole second weight at every point. -/
theorem blk4 (c : Dev nD) (t : Fin cfg0.N) (x : S4096x32.Idx) (k : S4096x32.Idx)
    (hk0 : (k 0).val = (x 0).val) (hk1 : (k 1).val = (x 1).val) :
    (iblk m c 4 t : Vec Ideal S4096x32 .f32) x = (V m c main_arg4 : S4096x32.Idx → EReal) k := by
  obtain ⟨-, -, -, -, ⟨e0, e1⟩, -, -, -, -, -, -, -⟩ := idx_facts t
  unfold iblk
  rw [View.read_apply]
  show V m c main_arg4 _ = V m c main_arg4 _
  congr 1
  funext a
  apply Fin.ext
  match a with
  | ⟨0, _⟩ => show win0_4.index t (0 : Fin 2) * 4096 + 1 * (x 0).val = (k 0).val; rw [e0, hk0]; omega
  | ⟨1, _⟩ => show win0_4.index t (1 : Fin 2) * 32 + 1 * (x 1).val = (k 1).val; rw [e1, hk1]; omega

/-- The whole second bias row at every point. -/
theorem blk5 (c : Dev nD) (t : Fin cfg0.N) (x : S1x32.Idx) (k : S1x32.Idx)
    (hk0 : (k 0).val = (x 0).val) (hk1 : (k 1).val = (x 1).val) :
    (iblk m c 5 t : Vec Ideal S1x32 .f32) x = (V m c main_v3 : S1x32.Idx → EReal) k := by
  obtain ⟨-, -, -, -, -, ⟨e0, e1⟩, -, -, -, -, -, -⟩ := idx_facts t
  unfold iblk
  rw [View.read_apply]
  show V m c main_v3 _ = V m c main_v3 _
  congr 1
  funext a
  apply Fin.ext
  match a with
  | ⟨0, _⟩ => show win0_5.index t (0 : Fin 2) * 1 + 1 * (x 0).val = (k 0).val; rw [e0, hk0]; omega
  | ⟨1, _⟩ => show win0_5.index t (1 : Fin 2) * 32 + 1 * (x 1).val = (k 1).val; rw [e1, hk1]; omega

/-- The whole upper half of the third weight at every point. -/
theorem blk6 (c : Dev nD) (t : Fin cfg0.N) (x : S32x4096.Idx) (k : S32x4096.Idx)
    (hk0 : (k 0).val = (x 0).val) (hk1 : (k 1).val = (x 1).val) :
    (iblk m c 6 t : Vec Ideal S32x4096 .f32) x = (V m c main_v0 : S32x4096.Idx → EReal) k := by
  obtain ⟨-, -, -, -, -, -, ⟨e0, e1⟩, -, -, -, -, -⟩ := idx_facts t
  unfold iblk
  rw [View.read_apply]
  show V m c main_v0 _ = V m c main_v0 _
  congr 1
  funext a
  apply Fin.ext
  match a with
  | ⟨0, _⟩ => show win0_6.index t (0 : Fin 2) * 32 + 1 * (x 0).val = (k 0).val; rw [e0, hk0]; omega
  | ⟨1, _⟩ => show win0_6.index t (1 : Fin 2) * 4096 + 1 * (x 1).val = (k 1).val; rw [e1, hk1]; omega

/-- The whole lower half of the third weight at every point. -/
theorem blk7 (c : Dev nD) (t : Fin cfg0.N) (x : S32x4096.Idx) (k : S32x4096.Idx)
    (hk0 : (k 0).val = (x 0).val) (hk1 : (k 1).val = (x 1).val) :
    (iblk m c 7 t : Vec Ideal S32x4096 .f32) x = (V m c main_v1 : S32x4096.Idx → EReal) k := by
  obtain ⟨-, -, -, -, -, -, -, ⟨e0, e1⟩, -, -, -, -⟩ := idx_facts t
  unfold iblk
  rw [View.read_apply]
  show V m c main_v1 _ = V m c main_v1 _
  congr 1
  funext a
  apply Fin.ext
  match a with
  | ⟨0, _⟩ => show win0_7.index t (0 : Fin 2) * 32 + 1 * (x 0).val = (k 0).val; rw [e0, hk0]; omega
  | ⟨1, _⟩ => show win0_7.index t (1 : Fin 2) * 4096 + 1 * (x 1).val = (k 1).val; rw [e1, hk1]; omega

/-- The whole third bias row at every point. -/
theorem blk8 (c : Dev nD) (t : Fin cfg0.N) (x : S1x4096.Idx) (k : S1x4096.Idx)
    (hk0 : (k 0).val = (x 0).val) (hk1 : (k 1).val = (x 1).val) :
    (iblk m c 8 t : Vec Ideal S1x4096 .f32) x = (V m c main_v4 : S1x4096.Idx → EReal) k := by
  obtain ⟨-, -, -, -, -, -, -, -, ⟨e0, e1⟩, -, -, -⟩ := idx_facts t
  unfold iblk
  rw [View.read_apply]
  show V m c main_v4 _ = V m c main_v4 _
  congr 1
  funext a
  apply Fin.ext
  match a with
  | ⟨0, _⟩ => show win0_8.index t (0 : Fin 2) * 1 + 1 * (x 0).val = (k 0).val; rw [e0, hk0]; omega
  | ⟨1, _⟩ => show win0_8.index t (1 : Fin 2) * 4096 + 1 * (x 1).val = (k 1).val; rw [e1, hk1]; omega

/-- The whole last weight at every point. -/
theorem blk9 (c : Dev nD) (t : Fin cfg0.N) (x : S4096x128.Idx) (k : S4096x128.Idx)
    (hk0 : (k 0).val = (x 0).val) (hk1 : (k 1).val = (x 1).val) :
    (iblk m c 9 t : Vec Ideal S4096x128 .f32) x = (V m c main_arg8 : S4096x128.Idx → EReal) k := by
  obtain ⟨-, -, -, -, -, -, -, -, -, ⟨e0, e1⟩, -, -⟩ := idx_facts t
  unfold iblk
  rw [View.read_apply]
  show V m c main_arg8 _ = V m c main_arg8 _
  congr 1
  funext a
  apply Fin.ext
  match a with
  | ⟨0, _⟩ => show win0_9.index t (0 : Fin 2) * 4096 + 1 * (x 0).val = (k 0).val; rw [e0, hk0]; omega
  | ⟨1, _⟩ => show win0_9.index t (1 : Fin 2) * 128 + 1 * (x 1).val = (k 1).val; rw [e1, hk1]; omega

/-- The whole last bias row at every point. -/
theorem blk10 (c : Dev nD) (t : Fin cfg0.N) (x : S1x128.Idx) (k : S1x128.Idx)
    (hk0 : (k 0).val = (x 0).val) (hk1 : (k 1).val = (x 1).val) :
    (iblk m c 10 t : Vec Ideal S1x128 .f32) x = (V m c main_v5 : S1x128.Idx → EReal) k := by
  obtain ⟨-, -, -, -, -, -, -, -, -, -, ⟨e0, e1⟩, -⟩ := idx_facts t
  unfold iblk
  rw [View.read_apply]
  show V m c main_v5 _ = V m c main_v5 _
  congr 1
  funext a
  apply Fin.ext
  match a with
  | ⟨0, _⟩ => show win0_10.index t (0 : Fin 2) * 1 + 1 * (x 0).val = (k 0).val; rw [e0, hk0]; omega
  | ⟨1, _⟩ => show win0_10.index t (1 : Fin 2) * 128 + 1 * (x 1).val = (k 1).val; rw [e1, hk1]; omega

/-! ## The blocks as the argument arrays -/

/-- Row `y` of point `t`'s block is row `512 t + y` of the array. -/
abbrev rowAt (t : Fin cfg0.N) (y : Fin 512) : Fin 16384 :=
  ⟨512 * t.val + y.val, by
    have ht : t.val < 32 := lt_of_lt_of_eq t.isLt N_0
    have hy : y.val < 512 := y.isLt
    omega⟩

theorem state_rows (c : Dev nD) (t : Fin cfg0.N) (y : Fin 512) :
    row (iblk m c 0 t : Vec Ideal S512x32 .f32) y = row (m ((c : Thread nD τ).loc main_arg0)) (rowAt t y) :=
  funext fun p => (blk0 m c t (ix2 y p) (ix2 (rowAt t y) p) rfl rfl).trans (congrFun (V_main_arg0 m c) _)

theorem next_rows (c : Dev nD) (t : Fin cfg0.N) (y : Fin 512) :
    row (iblk m c 1 t : Vec Ideal S512x32 .f32) y = row (m ((c : Thread nD τ).loc main_arg1)) (rowAt t y) :=
  funext fun p => (blk1 m c t (ix2 y p) (ix2 (rowAt t y) p) rfl rfl).trans (congrFun (V_main_arg1 m c) _)

theorem w1_blk (c : Dev nD) (t : Fin cfg0.N) : mat (iblk m c 2 t : Vec Ideal S32x4096 .f32) = mat (m ((c : Thread nD τ).loc main_arg2)) :=
  funext fun p => funext fun k => (blk2 m c t (ix2 p k) (ix2 p k) rfl rfl).trans (congrFun (V_main_arg2 m c) _)

theorem w2_blk (c : Dev nD) (t : Fin cfg0.N) : mat (iblk m c 4 t : Vec Ideal S4096x32 .f32) = mat (m ((c : Thread nD τ).loc main_arg4)) :=
  funext fun p => funext fun k => (blk4 m c t (ix2 p k) (ix2 p k) rfl rfl).trans (congrFun (V_main_arg4 m c) _)

theorem w4_blk (c : Dev nD) (t : Fin cfg0.N) : mat (iblk m c 9 t : Vec Ideal S4096x128 .f32) = mat (m ((c : Thread nD τ).loc main_arg8)) :=
  funext fun p => funext fun k => (blk9 m c t (ix2 p k) (ix2 p k) rfl rfl).trans (congrFun (V_main_arg8 m c) _)

/-- A vector reshaped to a one-row matrix, read at `(0, k)`, is the vector at `k`. -/
theorem one_row {n : Nat} (v : (⟨1, ![n]⟩ : Shape).Idx → EReal) (h : (⟨1, ![n]⟩ : Shape).ShapeCasts ⟨2, ![1, n]⟩) (k : Fin n) :
    shapeCast ⟨2, ![1, n]⟩ v h (ix2 (0 : Fin 1) k) = v (ix1 k) :=
  (shapeCast_addUnit_apply ![n] v h (ix2 (0 : Fin 1) k)).trans (congrArg v (funext fun a => match a with | ⟨0, _⟩ => rfl))

theorem b1_blk (c : Dev nD) (t : Fin cfg0.N) :
    (fun k : Fin 4096 => (iblk m c 3 t : Vec Ideal S1x4096 .f32) (ix2 0 k)) = vec (m ((c : Thread nD τ).loc main_arg3)) :=
  funext fun k => (blk3 m c t (ix2 0 k) (ix2 0 k) rfl rfl).trans (by rw [V_b1]; exact one_row _ _ k)

theorem b2_blk (c : Dev nD) (t : Fin cfg0.N) :
    (fun k : Fin 32 => (iblk m c 5 t : Vec Ideal S1x32 .f32) (ix2 0 k)) = vec (m ((c : Thread nD τ).loc main_arg5)) :=
  funext fun k => (blk5 m c t (ix2 0 k) (ix2 0 k) rfl rfl).trans (by rw [V_b2]; exact one_row _ _ k)

theorem b3_blk (c : Dev nD) (t : Fin cfg0.N) :
    (fun k : Fin 4096 => (iblk m c 8 t : Vec Ideal S1x4096 .f32) (ix2 0 k)) = vec (m ((c : Thread nD τ).loc main_arg7)) :=
  funext fun k => (blk8 m c t (ix2 0 k) (ix2 0 k) rfl rfl).trans (by rw [V_b3]; exact one_row _ _ k)

theorem b4_blk (c : Dev nD) (t : Fin cfg0.N) :
    (fun k : Fin 128 => (iblk m c 10 t : Vec Ideal S1x128 .f32) (ix2 0 k)) = vec (m ((c : Thread nD τ).loc main_arg9)) :=
  funext fun k => (blk10 m c t (ix2 0 k) (ix2 0 k) rfl rfl).trans (by rw [V_b4]; exact one_row _ _ k)

theorem wa_blk (c : Dev nD) (t : Fin cfg0.N) : mat (iblk m c 6 t : Vec Ideal S32x4096 .f32) = upper (mat (m ((c : Thread nD τ).loc main_arg6))) :=
  funext fun q => funext fun k => (blk6 m c t (ix2 q k) (ix2 q k) rfl rfl).trans (by
    rw [V_upper]
    exact extractStridedSlice_apply _ _ _ (ix2 q k) (ix2 (⟨q.val, Nat.lt_of_lt_of_le q.isLt (by decide)⟩ : Fin 64) k) (fun a => match a with
      | ⟨0, _⟩ => by show q.val = 0 + q.val; omega
      | ⟨1, _⟩ => by show k.val = 0 + k.val; omega))

theorem wb_blk (c : Dev nD) (t : Fin cfg0.N) : mat (iblk m c 7 t : Vec Ideal S32x4096 .f32) = lower (mat (m ((c : Thread nD τ).loc main_arg6))) :=
  funext fun q => funext fun k => (blk7 m c t (ix2 q k) (ix2 q k) rfl rfl).trans (by
    rw [V_lower]
    exact extractStridedSlice_apply _ _ _ (ix2 q k) (ix2 (⟨32 + q.val, Nat.add_lt_add_left q.isLt 32⟩ : Fin 64) k) (fun a => match a with
      | ⟨0, _⟩ => by show 32 + q.val = 32 + q.val; rfl
      | ⟨1, _⟩ => by show k.val = 0 + k.val; omega))

/-! ## What a point writes back -/

/-- The output block is written back whole: reading it through the window at `(y, j)` is reading it at `(y, j)`. -/
theorem cut_at (t : Fin cfg0.N) (X : Vec Ideal S512x128 .f32) (y : Fin 512) (jj : Fin 128) :
    (cfg0.win 11).cut (grid0.coords t) X (ix2 y jj) = X (ix2 y jj) :=
  congrArg X (funext fun a => Fin.ext (by match a with | ⟨0, _⟩ => rfl | ⟨1, _⟩ => rfl))

/-- Entry `(y, j)` of point `t`'s output block sits at `(512 t + y, j)` of the result array. -/
theorem out_emb (t : Fin cfg0.N) (y : Fin 512) (jj : Fin 128) :
    ((cfg0.win 11).blk t).view.emb (ix2 y jj) = (ix2 (rowAt t y) jj : S16384x128.Idx) := by
  obtain ⟨-, -, -, -, -, -, -, -, -, -, -, ⟨e0, e1⟩⟩ := idx_facts t
  funext a
  apply Fin.ext
  match a with
  | ⟨0, _⟩ => show win0_11.index t (0 : Fin 2) * 512 + 1 * y.val = 512 * t.val + y.val; rw [e0]; omega
  | ⟨1, _⟩ => show win0_11.index t (1 : Fin 2) * 128 + 1 * jj.val = jj.val; rw [e1]; omega

/-- WHAT POINT `t` WRITES BACK is block `t` of `RowSpec.network` of the argument arrays. -/
theorem flushed_eq (c : Dev nD) (t : Fin cfg0.N) :
    (dats m 0 c).flushed 11 t = ((cfg0.win 11).blk t).view.read (Elt Ideal) (network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  rw [flushed11]
  unfold out0_11
  rw [View.canon_unit_zero hz]
  simp only [View.ld_unit_zero (S := S512x32) hz, View.ld_unit_zero (S := S32x4096) hz, View.ld_unit_zero (S := S4096x32) hz,
    View.ld_unit_zero (S := S1x4096) hz, View.ld_unit_zero (S := S1x32) hz, View.ld_unit_zero (S := S4096x128) hz,
    View.ld_unit_zero (S := S1x128) hz]
  funext j
  obtain ⟨y, jj, rfl⟩ : ∃ (y : Fin 512) (jj : Fin 128), j = ix2 y jj := ⟨j 0, j 1, eq_ix2 j⟩
  rw [View.read_apply, out_emb]
  refine (cut_at t _ y jj).trans ?_
  refine (KerRow.body_blk (iblk m c 0 t) (iblk m c 1 t) (iblk m c 2 t) (iblk m c 3 t) (iblk m c 4 t) (iblk m c 5 t) (iblk m c 6 t) (iblk m c 7 t) (iblk m c 8 t) (iblk m c 9 t) (iblk m c 10 t) y jj).trans ?_
  rw [w1_blk, b1_blk, w2_blk, b2_blk, wa_blk, wb_blk, b3_blk, w4_blk, b4_blk, state_rows, next_rows]
  rfl

/-! ## The 32 blocks tile the result -/

/-- An index of the result is in point `t`'s block iff each coordinate is in the block's range on its axis. -/
theorem mem_blk (t : Fin cfg0.N) (i : S16384x128.Idx) :
    i ∈ ((cfg0.win 11).blk t).view.set ↔ ∀ a : Fin 2, win0_11.index t a * S512x128.size a ≤ (i a).val
      ∧ (i a).val < win0_11.index t a * S512x128.size a + S512x128.size a := by
  show i ∈ ((View.whole main_v6).slice (win0_11.rect t)).set ↔ _
  rw [View.set_slice_whole, Rect.mem_set_unit]
  exact Iff.rfl

/-- Row `R` of the result is written by point `R / 512`. -/
theorem covered (i : S16384x128.Idx) : ∃ t : Fin cfg0.N, (cfg0.win 11).flush t = true ∧ i ∈ ((cfg0.win 11).blk t).view.set := by
  have hi0 : (i 0).val < 16384 := (i 0).isLt
  have hi1 : (i 1).val < 128 := (i 1).isLt
  have hN : cfg0.N = 32 := N_0
  let t : Fin cfg0.N := ⟨(i 0).val / 512, by rw [hN]; omega⟩
  obtain ⟨-, -, -, -, -, -, -, -, -, -, -, ⟨e0, e1⟩⟩ := idx_facts t
  have ht : t.val = (i 0).val / 512 := rfl
  refine ⟨t, flush0_11 t, ?_⟩
  rw [mem_blk]
  intro a
  match a with
  | ⟨0, _⟩ => show win0_11.index t (0 : Fin 2) * 512 ≤ (i 0).val ∧ (i 0).val < win0_11.index t (0 : Fin 2) * 512 + 512; rw [e0, ht]; omega
  | ⟨1, _⟩ => show win0_11.index t (1 : Fin 2) * 128 ≤ (i 1).val ∧ (i 1).val < win0_11.index t (1 : Fin 2) * 128 + 128; rw [e1]; omega

/-- THE RESULT ARRAY after the run is `RowSpec.network` of the argument arrays. -/
theorem final (c : Dev nD) : (dats m 0 c).arrAt 11 cfg0.N = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (dats m 0 c).arrAt_eq_of_cover 11 _ (fun t _ => flushed_eq m c t) covered

/-! ## The run, read -/

/-- Every weakly fair execution of the kernel's program ends with the result array at `RowSpec.network` of the arguments and the
    arguments unchanged. -/
theorem run : θ_run defs (onTc (τ := τ) (main (F := Ideal))) ⟨m, fun _ => 0, ρ⟩ fun r => ∀ c : Dev nD,
      r.2.mem ((c : Thread nD τ).loc main_v6) = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (run_blocks m ρ)

end Cert.KernelIdeal.Whole

end
-- ==== Proof.lean ====
/-
  A two-tower network with a joint head: the kernel against its reference, over the extended reals.

  Both programs compute, for each of the 16384 batch rows, from row `s` of `state` and row `n` of `next_state`,
      o_s = max (max (s · W1 + b1, 0) · W2 + b2, 0),      o_n = the same of n,
      h   = max ([o_s, o_n] · W3 + b3, 0),                 out = h · W4 + b4.
  The reference joins `o_s` and `o_n` into 64 columns and contracts them against the 64-row `W3`; the kernel, tiled 512 rows to a
  grid point with every weight resident, contracts `o_s` against rows `0 … 31` of `W3` and `o_n` against rows `32 … 63` and adds the
  two. A sum over 64 coordinates is the sum over its first 32 plus the sum over its last 32 in any additive commutative monoid, so
  the two agree at every extended-real input: the precondition (finite inputs) is never opened. A change of tiling and a matrix
  product into a zero accumulator are no difference at the extended reals, and both programs spell the relu as the maximum with the
  zero word.

  `RowSpec` states the network on one row and the whole result `RowSpec.network`; `RefRow` reads the reference's operations one row at
  a time (`result_eq`); `KerRow` reads the kernel body's stored block one row at a time (`body_blk`); `KernelWhole` goes from the
  32 blocks to the array (`run`). The three frames are the generated ones (the reference's is its generated run with the result
  dropped), and the idealization rewrote no operation, so `preserves` has nothing to state.
-/
import proofs.«101186_g11802570129985_cont_fleet_79_2_alg».proof.Defs
import proofs.«101186_g11802570129985_cont_fleet_79_2_alg».proof.Proof.Gen.Kernel
import proofs.«101186_g11802570129985_cont_fleet_79_2_alg».proof.Proof.Gen.Kernel.Skeleton
import proofs.«101186_g11802570129985_cont_fleet_79_2_alg».proof.Proof.Gen.Kernel.Launch
import proofs.«101186_g11802570129985_cont_fleet_79_2_alg».proof.Proof.Gen.Kernel.Points
import proofs.«101186_g11802570129985_cont_fleet_79_2_alg».proof.Proof.Gen.Kernel.Frame
import proofs.«101186_g11802570129985_cont_fleet_79_2_alg».proof.Proof.Gen.KernelIdeal
import proofs.«101186_g11802570129985_cont_fleet_79_2_alg».proof.Proof.Gen.KernelIdeal.Skeleton
import proofs.«101186_g11802570129985_cont_fleet_79_2_alg».proof.Proof.Gen.KernelIdeal.Launch
import proofs.«101186_g11802570129985_cont_fleet_79_2_alg».proof.Proof.Gen.KernelIdeal.Points
import proofs.«101186_g11802570129985_cont_fleet_79_2_alg».proof.Proof.Gen.KernelIdeal.Frame
import proofs.«101186_g11802570129985_cont_fleet_79_2_alg».proof.Proof.Gen.ReferenceIdeal
import proofs.«101186_g11802570129985_cont_fleet_79_2_alg».proof.Proof.Gen.Pre_finite_inputs
import proofs.«101186_g11802570129985_cont_fleet_79_2_alg».proof.Proof.Gen.KernelIdeal.Value
import proofs.«101186_g11802570129985_cont_fleet_79_2_alg».proof.Proof.Gen.ReferenceIdeal.Run
import proofs.«101186_g11802570129985_cont_fleet_79_2_alg».proof.Proof.Gen.ReferenceIdeal.Read
import proofs.«101186_g11802570129985_cont_fleet_79_2_alg».proof.Proof.RowSpec
import proofs.«101186_g11802570129985_cont_fleet_79_2_alg».proof.Proof.RefRow
import proofs.«101186_g11802570129985_cont_fleet_79_2_alg».proof.Proof.KerRow
import proofs.«101186_g11802570129985_cont_fleet_79_2_alg».proof.Proof.KernelWhole
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the ten arguments both programs end with the result array at `RowSpec.network` of the arguments:
    the kernel by `KernelWhole.run`, the reference by its generated run and `RefRow.result_eq`. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefRow.result_eq]
  obtain ⟨h0, h1, h2, h3, h4, h5, h6, h7, h8, h9⟩ := hagree c
  rw [h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
